-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x3 : Shape := ⟨2, ![1600000, 3]⟩
abbrev S1600000 : Shape := ⟨1, ![1600000]⟩
abbrev S256x64 : Shape := ⟨2, ![256, 64]⟩
abbrev S64 : Shape := ⟨1, ![64]⟩
abbrev S32x64 : Shape := ⟨2, ![32, 64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_arg5 : FVec F S32x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x32 .f32) (main_arg1 : IVec S1600000x3 32) (main_arg2 : FVec F S1600000 .f32) (main_arg3 : FVec F S256x64 .f32) (main_arg4 : FVec F S64 .f32) (main_arg5 : FVec F S32x64 .f32) (main_arg6 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x32 : Shape := ⟨2, ![100000, 32]⟩
abbrev S1600000x3 : Shape := ⟨2, ![1600000, 3]⟩
abbrev S1600000 : Shape := ⟨1, ![1600000]⟩
abbrev S256x64 : Shape := ⟨2, ![256, 64]⟩
abbrev S64 : Shape := ⟨1, ![64]⟩
abbrev S32x64 : Shape := ⟨2, ![32, 64]⟩
abbrev S1600000x1 : Shape := ⟨2, ![1600000, 1]⟩
abbrev S_ : Shape := ⟨0, ![]⟩
abbrev S1600000x32 : Shape := ⟨2, ![1600000, 32]⟩
abbrev S800000x32 : Shape := ⟨2, ![800000, 32]⟩
abbrev S800000x1 : Shape := ⟨2, ![800000, 1]⟩
abbrev S100000x256 : Shape := ⟨2, ![100000, 256]⟩
abbrev S1x64 : Shape := ⟨2, ![1, 64]⟩
abbrev S100000x64 : Shape := ⟨2, ![100000, 64]⟩
abbrev S5000x256 : Shape := ⟨2, ![5000, 256]⟩
abbrev S5000x32 : Shape := ⟨2, ![5000, 32]⟩
abbrev S5000x64 : Shape := ⟨2, ![5000, 64]⟩

abbrev nBuf : Space → Nat
  | .hbm => 46
  | .vmem => 10
  | .smem => 0
  | _ => 0

abbrev bufTy : (tb : Table) → Fin (tcTables nBuf tb) → BufTy
  | .hbm, ⟨0, _⟩ => ⟨S100000x32, .f32⟩
  | .hbm, ⟨1, _⟩ => ⟨S1600000x3, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S1600000x1, .i32⟩
  | .hbm, ⟨8, _⟩ => ⟨S1600000, .i32⟩
  | .hbm, ⟨9, _⟩ => ⟨S1600000x1, .i32⟩
  | .hbm, ⟨10, _⟩ => ⟨S1600000, .i32⟩
  | .hbm, ⟨11, _⟩ => ⟨S1600000x1, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .f32⟩
  | .hbm, ⟨27, _⟩ => ⟨S1600000x32, .f32⟩
  | .hbm, ⟨28, _⟩ => ⟨S1600000x32, .f32⟩
  | .hbm, ⟨29, _⟩ => ⟨S_, .f32⟩
  | .hbm, ⟨30, _⟩ => ⟨S800000x32, .f32⟩
  | .hbm, ⟨31, _⟩ => ⟨S1600000x1, .i32⟩
  | .hbm, ⟨32, _⟩ => ⟨S800000x32, .f32⟩
  | .hbm, ⟨33, _⟩ => ⟨S_, .f32⟩
  | .hbm, ⟨34, _⟩ => ⟨S800000x1, .f32⟩
  | .hbm, ⟨35, _⟩ => ⟨S1600000x1, .i32⟩
  | .hbm, ⟨36, _⟩ => ⟨S800000x1, .f32⟩
  | .hbm, ⟨37, _⟩ => ⟨S_, .f32⟩
  | .hbm, ⟨38, _⟩ => ⟨S800000x1, .f32⟩
  | .hbm, ⟨39, _⟩ => ⟨S800000x1, .f32⟩
  | .hbm, ⟨40, _⟩ => ⟨S800000x32, .f32⟩
  | .hbm, ⟨41, _⟩ => ⟨S800000x32, .f32⟩
  | .hbm, ⟨42, _⟩ => ⟨S100000x256, .f32⟩
  | .hbm, ⟨43, _⟩ => ⟨S1x64, .f32⟩
  | .hbm, ⟨44, _⟩ => ⟨S1x64, .f32⟩
  | .hbm, ⟨45, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S5000x32, .f32⟩
  | .local _ .vmem, ⟨3, _⟩ => ⟨S5000x32, .f32⟩
  | .local _ .vmem, ⟨4, _⟩ => ⟨S256x64, .f32⟩
  | .local _ .vmem, ⟨5, _⟩ => ⟨S1x64, .f32⟩
  | .local _ .vmem, ⟨6, _⟩ => ⟨S32x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S1600000x3_S1600000x1_0_0 : S1600000x3.Slices ![0, 0] S1600000x1
  shapeCasts_S1600000x1_S1600000 : S1600000x1.ShapeCasts S1600000
  slices_S1600000x3_S1600000x1_0_1 : S1600000x3.Slices ![0, 1] S1600000x1
  slices_S1600000x3_S1600000x1_0_2 : S1600000x3.Slices ![0, 2] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S800000x32 : S_.BroadcastsInDim S800000x32 (![] : Fin 0 → Fin S800000x32.rank)
  bcast_S_S800000x1 : S_.BroadcastsInDim S800000x1 (![] : Fin 0 → Fin S800000x1.rank)
  bcast_S800000x1_S800000x32_0_1 : S800000x1.BroadcastsInDim S800000x32 (![0, 1] : Fin 2 → Fin S800000x32.rank)
  shapeCasts_S800000x32_S100000x256 : S800000x32.ShapeCasts S100000x256
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S5000x32_S5000x32_0_0 : ∀ a, (![0, 0] : Fin 2 → Nat) a + S5000x32.size a ≤ S5000x32.size a
  h_S5000x32 : 0 < S5000x32.numel
  inb_S256x64_S256x64_0_0 : ∀ a, (![0, 0] : Fin 2 → Nat) a + S256x64.size a ≤ S256x64.size a
  h_S256x64 : 0 < S256x64.numel
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x32_S1600000x1_S1600000x32_1_0_n_n_0_1_132_wf : GatherDims.WF S100000x32 S1600000x1 S1600000x32 [1] [0] [] [0] [] 1 ![1, 32]
  scatter_S800000x32_S1600000x1_S1600000x32_1_0_0_1_wf : ScatterDims.WF S800000x32 S1600000x1 S1600000x32 [1] [0] [0] 1
  scatter_S800000x1_S1600000x1_S1600000x1_1_0_0_1_wf : ScatterDims.WF S800000x1 S1600000x1 S1600000x1 [1] [0] [0] 1
  dot_S5000x256_S256x64_S5000x64_1_0_0_1_n_n_wf : DotDims.WF S5000x256 S256x64 S5000x64 [1] [0] [0] [1] [] []
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S800000x32_S1600000x1_S1600000x32_1_0_0_1 : ScatterDims S800000x32 S1600000x1 S1600000x32 where
  updateWindowDims := [1]
  insertedWindowDims := [0]
  scatterDimsToOperandDims := [0]
  indexVectorDim := 1
  wf := scatter_S800000x32_S1600000x1_S1600000x32_1_0_0_1_wf
def scatter_S800000x1_S1600000x1_S1600000x1_1_0_0_1 : ScatterDims S800000x1 S1600000x1 S1600000x1 where
  updateWindowDims := [1]
  insertedWindowDims := [0]
  scatterDimsToOperandDims := [0]
  indexVectorDim := 1
  wf := scatter_S800000x1_S1600000x1_S1600000x1_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_v29) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x32 : Shape := ⟨2, ![100000, 32]⟩
abbrev S1600000x3 : Shape := ⟨2, ![1600000, 3]⟩
abbrev S1600000 : Shape := ⟨1, ![1600000]⟩
abbrev S256x64 : Shape := ⟨2, ![256, 64]⟩
abbrev S64 : Shape := ⟨1, ![64]⟩
abbrev S32x64 : Shape := ⟨2, ![32, 64]⟩
abbrev S1600000x1 : Shape := ⟨2, ![1600000, 1]⟩
abbrev S_ : Shape := ⟨0, ![]⟩
abbrev S1600000x32 : Shape := ⟨2, ![1600000, 32]⟩
abbrev S800000x32 : Shape := ⟨2, ![800000, 32]⟩
abbrev S800000x1 : Shape := ⟨2, ![800000, 1]⟩
abbrev S100000x256 : Shape := ⟨2, ![100000, 256]⟩
abbrev S100000x64 : Shape := ⟨2, ![100000, 64]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000x3, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S1600000x1, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x32, .f32⟩
  | .hbm, ⟨18, _⟩ => ⟨S1600000x1, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000, .i32⟩
  | .hbm, ⟨25, _⟩ => ⟨S1600000, .i32⟩
  | .hbm, ⟨26, _⟩ => ⟨S1600000x1, .f32⟩
  | .hbm, ⟨27, _⟩ => ⟨S1600000x32, .f32⟩
  | .hbm, ⟨28, _⟩ => ⟨S1600000x32, .f32⟩
  | .hbm, ⟨29, _⟩ => ⟨S_, .f32⟩
  | .hbm, ⟨30, _⟩ => ⟨S800000x32, .f32⟩
  | .hbm, ⟨31, _⟩ => ⟨S1600000x1, .i32⟩
  | .hbm, ⟨32, _⟩ => ⟨S800000x32, .f32⟩
  | .hbm, ⟨33, _⟩ => ⟨S_, .f32⟩
  | .hbm, ⟨34, _⟩ => ⟨S800000x1, .f32⟩
  | .hbm, ⟨35, _⟩ => ⟨S1600000x1, .i32⟩
  | .hbm, ⟨36, _⟩ => ⟨S800000x1, .f32⟩
  | .hbm, ⟨37, _⟩ => ⟨S_, .f32⟩
  | .hbm, ⟨38, _⟩ => ⟨S800000x1, .f32⟩
  | .hbm, ⟨39, _⟩ => ⟨S800000x1, .f32⟩
  | .hbm, ⟨40, _⟩ => ⟨S800000x32, .f32⟩
  | .hbm, ⟨41, _⟩ => ⟨S800000x32, .f32⟩
  | .hbm, ⟨42, _⟩ => ⟨S100000x256, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_cst : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  slices_S1600000x3_S1600000x1_0_0 : S1600000x3.Slices ![0, 0] S1600000x1
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x3_S1600000x1_0_1 : S1600000x3.Slices ![0, 1] S1600000x1
  slices_S1600000x3_S1600000x1_0_2 : S1600000x3.Slices ![0, 2] S1600000x1
  bcast_S1600000x1_S1600000x32_0_1 : S1600000x1.BroadcastsInDim S1600000x32 (![0, 1] : Fin 2 → Fin S1600000x32.rank)
  bcast_S_S800000x32 : S_.BroadcastsInDim S800000x32 (![] : Fin 0 → Fin S800000x32.rank)
  bcast_S_S800000x1 : S_.BroadcastsInDim S800000x1 (![] : Fin 0 → Fin S800000x1.rank)
  bcast_S800000x1_S800000x32_0_1 : S800000x1.BroadcastsInDim S800000x32 (![0, 1] : Fin 2 → Fin S800000x32.rank)
  shapeCasts_S800000x32_S100000x256 : S800000x32.ShapeCasts S100000x256
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x32_S1600000x1_S1600000x32_1_0_n_n_0_1_132_wf : GatherDims.WF S100000x32 S1600000x1 S1600000x32 [1] [0] [] [0] [] 1 ![1, 32]
  scatter_S800000x32_S1600000x1_S1600000x32_1_0_0_1_wf : ScatterDims.WF S800000x32 S1600000x1 S1600000x32 [1] [0] [0] 1
  scatter_S800000x1_S1600000x1_S1600000x1_1_0_0_1_wf : ScatterDims.WF S800000x1 S1600000x1 S1600000x1 [1] [0] [0] 1
  dot_S100000x256_S256x64_S100000x64_1_0_0_1_n_n_wf : DotDims.WF S100000x256 S256x64 S100000x64 [1] [0] [0] [1] [] []
  dot_S100000x32_S32x64_S100000x64_1_0_0_1_n_n_wf : DotDims.WF S100000x32 S32x64 S100000x64 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S800000x32_S1600000x1_S1600000x32_1_0_0_1 : ScatterDims S800000x32 S1600000x1 S1600000x32 where
  updateWindowDims := [1]
  insertedWindowDims := [0]
  scatterDimsToOperandDims := [0]
  indexVectorDim := 1
  wf := scatter_S800000x32_S1600000x1_S1600000x32_1_0_0_1_wf
def scatter_S800000x1_S1600000x1_S1600000x1_1_0_0_1 : ScatterDims S800000x1 S1600000x1 S1600000x1 where
  updateWindowDims := [1]
  insertedWindowDims := [0]
  scatterDimsToOperandDims := [0]
  indexVectorDim := 1
  wf := scatter_S800000x1_S1600000x1_S1600000x1_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf

class Facts : Prop extends Facts₀ where

variable [Facts]
-- ==== Proof.BodyAtIndex.lean ====
/-
  The kernel body's one stored value, read at an entry of its block.

  At a grid point the body holds a block of 5000 rows of the aggregated features (`u`, 256 wide) and of the node
  features (`x`, 32 wide), both weight matrices whole (`wl`, `ws`) and the two bias rows as 1×64 arrays
  (`bl`, `bs`). It narrows the four matrices to bf16 — the identity on extended reals —, multiplies `u·wl` and
  `x·ws` into zero accumulators, and stores `max (((u·wl + bl) + x·ws) + bs) 0`, the bias rows repeated down the
  5000 rows. Read at row `p` and column `q` of the block:

      max ( ((Σ_k u[p,k]·wl[k,q] + bl[0,q]) + Σ_k x[p,k]·ws[k,q]) + bs[0,q] ) 0.

  A matrix product into a zero accumulator is, entry by entry, the plain sum over the inner coordinate of the
  products; the two lemmas for it come first, one per inner extent (256 and 32).
-/
import proofs.«148265_j21766894256811_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-! ## The two matrix products at an entry -/

/-- Row axis of the left operand of the 256-wide product: the output's row. -/
theorem wide_lhs_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- Column axis of the left operand: the summation index. -/
theorem wide_lhs_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- Row axis of the right operand: the summation index. -/
theorem wide_rhs_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- Column axis of the right operand: the output's column. -/
theorem wide_rhs_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The 256-wide product into a zero accumulator, at row `p` and column `q` of a block of 5000 rows: the sum over the
    256 inner coordinates of the left operand's row `p` times the right operand's column `q`. -/
theorem wide_product {φ₁ φ₂ : FTy} (a : FVec Ideal S5000x256 φ₁) (b : FVec Ideal S256x64 φ₂) (p : Fin 5000) (q : Fin 64) :
    matmul dot_S5000x256_S256x64_S5000x64_1_0_0_1_n_n none a b (constant S5000x64 .f32 0x00000000#32) (ix2 p q)
      = ∑ k : Fin 256, a (ix2 p k) * b (ix2 k q) := by
  refine (Ideal.matmul_constant_zero_apply dot_S5000x256_S256x64_S5000x64_1_0_0_1_n_n none a b (ix2 p q)).trans ?_
  rw [← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact wide_lhs_0 _ _
    | ⟨1, _⟩ => exact (wide_lhs_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (wide_rhs_0 _ _).trans hk
    | ⟨1, _⟩ => exact wide_rhs_1 _ _)
  rw [el, er]

/-- Row axis of the left operand of the 32-wide product: the output's row. -/
theorem narrow_lhs_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
/-- Column axis of the left operand: the summation index. -/
theorem narrow_lhs_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
/-- Row axis of the right operand: the summation index. -/
theorem narrow_rhs_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
/-- Column axis of the right operand: the output's column. -/
theorem narrow_rhs_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The 32-wide product into a zero accumulator, at row `p` and column `q` of a block of 5000 rows: the sum over the
    32 inner coordinates of the left operand's row `p` times the right operand's column `q`. -/
theorem narrow_product {φ₁ φ₂ : FTy} (a : FVec Ideal S5000x32 φ₁) (b : FVec Ideal S32x64 φ₂) (p : Fin 5000) (q : Fin 64) :
    matmul dot_S5000x32_S32x64_S5000x64_1_0_0_1_n_n none a b (constant S5000x64 .f32 0x00000000#32) (ix2 p q)
      = ∑ k : Fin 32, a (ix2 p k) * b (ix2 k q) := by
  refine (Ideal.matmul_constant_zero_apply dot_S5000x32_S32x64_S5000x64_1_0_0_1_n_n none a b (ix2 p q)).trans ?_
  rw [← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k := funext fun a => Fin.ext (by
    match a with
    | ⟨0, _⟩ => exact narrow_lhs_0 _ _
    | ⟨1, _⟩ => exact (narrow_lhs_1 _ _).trans hk)
  have er : dot_S5000x32_S32x64_S5000x64_1_0_0_1_n_n.rhsIdx (ix2 p q) ((contrEquiv1 dot_S5000x32_S32x64_S5000x64_1_0_0_1_n_n 32 rfl rfl).symm k) = ix2 k q := funext fun a => Fin.ext (by
    match a with
    | ⟨0, _⟩ => exact (narrow_rhs_0 _ _).trans hk
    | ⟨1, _⟩ => exact narrow_rhs_1 _ _)
  rw [el, er]

/-! ## The stored value at an entry -/

/-- The value the body stores, at row `p` and column `q` of its block, as a function of the six loaded blocks: the
    two products as sums, each bias row read at its one row, the four summands added in the body's order, and the
    maximum with zero. -/
theorem stored_apply (u : FVec Ideal S5000x256 .f32) (x : FVec Ideal S5000x32 .f32) (wl : FVec Ideal S256x64 .f32)
    (ws : FVec Ideal S32x64 .f32) (bl bs : FVec Ideal S1x64 .f32) (p : Fin 5000) (q : Fin 64) :
    k0_pay1 (F := Ideal) u x wl ws bl bs (ix2 p q)
      = max ((((∑ k : Fin 256, u (ix2 p k) * wl (ix2 k q)) + bl (ix2 (0 : Fin 1) q))
          + ∑ k : Fin 32, x (ix2 p k) * ws (ix2 k q)) + bs (ix2 (0 : Fin 1) q)) (Ideal.ofBits .f32 0x00000000#32) := by
  unfold k0_pay1
  show max (((matmul dot_S5000x256_S256x64_S5000x64_1_0_0_1_n_n none _ _ _ (ix2 p q) + broadcastTo S5000x64 _ _ (ix2 p q))
      + matmul dot_S5000x32_S32x64_S5000x64_1_0_0_1_n_n none _ _ _ (ix2 p q)) + broadcastTo S5000x64 _ _ (ix2 p q)) _ = _
  rw [wide_product, narrow_product, broadcastTo_1b_ab_apply, broadcastTo_1b_ab_apply]
  simp only [shapeCast_self, truncf_apply]
  rfl

end Cert.KernelIdeal.Body

end
-- ==== Proof.Combine.lean ====
/-
  The function both programs compute once the aggregated features are in hand.

  For a node `p` and an output channel `q`, with `U` the aggregated features (one row of 256 per node),
  `X` the node features (one row of 32 per node), `Wl`, `Ws` the two weight matrices and `bl`, `bs` the two
  bias rows:

      combine p q = max ( ((Σ_k U[p,k]·Wl[k,q] + bl[q]) + Σ_k X[p,k]·Ws[k,q]) + bs[q] ) 0

  over the extended reals: the relation-wise linear map of the aggregate, its bias, the self-loop linear map of
  the node's own features, its bias, added in that order, then the rectifier. The order of the four summands is
  the one both programs use, so no law of the extended reals beyond reading each side at an index is needed, and
  in particular nothing here asks the entries to be finite.
-/
import Idealize.ShloMosaic.PureOps.Ideal
import Idealize.ShloMosaic.PureOps.Ideal.Laws
import Idealize.ShloMosaic.Lib.ValueIdx

noncomputable section

namespace Cert.Combine

open Idealize.ShloMosaic Idealize.ShloMosaic.ValueIdx

/-- The output array as one function of the aggregate, the node features, the weights and the bias rows: entry
    `(p, q)` is the rectified sum of the two affine maps at node `p`, channel `q`. The bias rows are given as
    functions of the channel, so that either layout of a bias (64 entries, or one row of 64) can be passed. -/
def combine (U : FVec Ideal ⟨2, ![100000, 256]⟩ .f32) (X : FVec Ideal ⟨2, ![100000, 32]⟩ .f32)
    (Wl : FVec Ideal ⟨2, ![256, 64]⟩ .f32) (bl : Fin 64 → EReal)
    (Ws : FVec Ideal ⟨2, ![32, 64]⟩ .f32) (bs : Fin 64 → EReal) : FVec Ideal ⟨2, ![100000, 64]⟩ .f32 := fun i =>
  max ((((∑ k : Fin 256, U (ix2 (i 0) k) * Wl (ix2 k (i 1))) + bl (i 1))
      + ∑ k : Fin 32, X (ix2 (i 0) k) * Ws (ix2 k (i 1))) + bs (i 1)) (Ideal.ofBits .f32 0x00000000#32)

/-- `combine` at node `p` and channel `q`, the coordinates given as numbers below the literal extents. -/
theorem combine_apply (U : FVec Ideal ⟨2, ![100000, 256]⟩ .f32) (X : FVec Ideal ⟨2, ![100000, 32]⟩ .f32)
    (Wl : FVec Ideal ⟨2, ![256, 64]⟩ .f32) (bl : Fin 64 → EReal)
    (Ws : FVec Ideal ⟨2, ![32, 64]⟩ .f32) (bs : Fin 64 → EReal) (p : Fin 100000) (q : Fin 64) :
    combine U X Wl bl Ws bs (ix2 p q)
      = max ((((∑ k : Fin 256, U (ix2 p k) * Wl (ix2 k q)) + bl q)
          + ∑ k : Fin 32, X (ix2 p k) * Ws (ix2 k q)) + bs q) (Ideal.ofBits .f32 0x00000000#32) := rfl

end Cert.Combine

end
-- ==== Proof.RowBlocks.lean ====
/-
  What the kernel's run leaves in the output array: `combine` of the arrays the region finds.

  The grid has 20 points. At point `t` the pipeline hands the body rows `5000·t … 5000·t + 4999` of the aggregated
  features and of the node features, and the two weight matrices and the two bias rows whole; the body's stored
  value is written back as rows `5000·t … 5000·t + 4999` of the output. Read at an entry (the body's value at an
  entry is in the module on the body), what point `t` writes back is exactly those rows of `combine` of the six
  arrays. The 20 row blocks tile the 100000 rows — row `r` lies in block `r / 5000` —, so after the run the output
  array is `combine` of the six arrays, whole.

  The block reads and the statement about one point are proved for ARBITRARY arrays of the six shapes: what the
  arrays are plays no part in where a block sits. They are applied to the region's arrays only at the end.
-/
import proofs.«148265_j21766894256811_1_alg».proof.Proof.Gen.KernelIdeal.Value
import proofs.«148265_j21766894256811_1_alg».proof.Proof.BodyAtIndex
import proofs.«148265_j21766894256811_1_alg».proof.Proof.Combine
import Idealize.ShloMosaic.Lib.Pipeline.Value

noncomputable section

namespace Cert.KernelIdeal.Rows

open Cert.KernelIdeal Cert.KernelIdeal.Gen Cert.KernelIdeal.Value Cert.KernelIdeal.Body Cert.Combine
open Idealize.ShloMosaic Idealize.ShloMosaic.TcCoe Idealize.SL.Sem Idealize.ShloMosaic.ValueIdx
open Idealize.ShloMosaic.Pipeline (Dat)

/-! ## Each window's block at a grid point, for any array -/

theorem hz : (![0, 0] : Fin 2 → Nat) = fun _ => 0 := funext fun a => by fin_cases a <;> rfl

/-- The block indices over the grid: the two row-blocked inputs and the output are at block `(t, 0)` at point `t`; the
    weights and the bias rows stay at block `(0, 0)`. Decided over the 20 points. -/
theorem index_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- Row `p` of the block of a 100000×256 array at point `t` is row `5000·t + p` of the array. -/
theorem read_aggr (A : FVec Ideal S100000x256 .f32) (t : Fin cfg0.N) (p : Fin 5000) (k : Fin 256) (P : Fin 100000)
    (hP : P.val = t.val * 5000 + p.val) :
    ((((cfg0.win 0).blk t).view.read (Elt Ideal) A) : FVec Ideal S5000x256 .f32) (ix2 p k) = A (ix2 P k) := by
  obtain ⟨e0, e1, -, -, -, -, -, -, -, -, -, -, -, -⟩ := index_facts t
  show A (((cfg0.win 0).blk t).view.emb (ix2 p k)) = A (ix2 P k)
  refine congrArg A (funext fun a => Fin.ext ?_)
  match a with
  | ⟨0, _⟩ => show win0_0.index t (0 : Fin 2) * 5000 + 1 * p.val = P.val; rw [e0, hP]; omega
  | ⟨1, _⟩ => show win0_0.index t (1 : Fin 2) * 256 + 1 * k.val = k.val; rw [e1]; omega

/-- Row `p` of the block of a 100000×32 array at point `t` is row `5000·t + p` of the array. -/
theorem read_feat (A : FVec Ideal S100000x32 .f32) (t : Fin cfg0.N) (p : Fin 5000) (k : Fin 32) (P : Fin 100000)
    (hP : P.val = t.val * 5000 + p.val) :
    ((((cfg0.win 1).blk t).view.read (Elt Ideal) A) : FVec Ideal S5000x32 .f32) (ix2 p k) = A (ix2 P k) := by
  obtain ⟨-, -, e0, e1, -, -, -, -, -, -, -, -, -, -⟩ := index_facts t
  show A (((cfg0.win 1).blk t).view.emb (ix2 p k)) = A (ix2 P k)
  refine congrArg A (funext fun a => Fin.ext ?_)
  match a with
  | ⟨0, _⟩ => show win0_1.index t (0 : Fin 2) * 5000 + 1 * p.val = P.val; rw [e0, hP]; omega
  | ⟨1, _⟩ => show win0_1.index t (1 : Fin 2) * 32 + 1 * k.val = k.val; rw [e1]; omega

/-- The one block of the 256×64 window is its whole array, at every point. -/
theorem read_wlin (A : FVec Ideal S256x64 .f32) (t : Fin cfg0.N) (a' : Fin 256) (b' : Fin 64) :
    ((((cfg0.win 2).blk t).view.read (Elt Ideal) A) : FVec Ideal S256x64 .f32) (ix2 a' b') = A (ix2 a' b') := by
  obtain ⟨-, -, -, -, e0, e1, -, -, -, -, -, -, -, -⟩ := index_facts t
  show A (((cfg0.win 2).blk t).view.emb (ix2 a' b')) = A (ix2 a' b')
  refine congrArg A (funext fun a => Fin.ext ?_)
  match a with
  | ⟨0, _⟩ => show win0_2.index t (0 : Fin 2) * 256 + 1 * a'.val = a'.val; rw [e0]; omega
  | ⟨1, _⟩ => show win0_2.index t (1 : Fin 2) * 64 + 1 * b'.val = b'.val; rw [e1]; omega

/-- The one block of the first 1×64 window is its whole array, at every point. -/
theorem read_blin (A : FVec Ideal S1x64 .f32) (t : Fin cfg0.N) (a' : Fin 1) (b' : Fin 64) :
    ((((cfg0.win 3).blk t).view.read (Elt Ideal) A) : FVec Ideal S1x64 .f32) (ix2 a' b') = A (ix2 a' b') := by
  obtain ⟨-, -, -, -, -, -, e0, e1, -, -, -, -, -, -⟩ := index_facts t
  show A (((cfg0.win 3).blk t).view.emb (ix2 a' b')) = A (ix2 a' b')
  refine congrArg A (funext fun a => Fin.ext ?_)
  match a with
  | ⟨0, _⟩ => show win0_3.index t (0 : Fin 2) * 1 + 1 * a'.val = a'.val; rw [e0]; omega
  | ⟨1, _⟩ => show win0_3.index t (1 : Fin 2) * 64 + 1 * b'.val = b'.val; rw [e1]; omega

/-- The one block of the 32×64 window is its whole array, at every point. -/
theorem read_wself (A : FVec Ideal S32x64 .f32) (t : Fin cfg0.N) (a' : Fin 32) (b' : Fin 64) :
    ((((cfg0.win 4).blk t).view.read (Elt Ideal) A) : FVec Ideal S32x64 .f32) (ix2 a' b') = A (ix2 a' b') := by
  obtain ⟨-, -, -, -, -, -, -, -, e0, e1, -, -, -, -⟩ := index_facts t
  show A (((cfg0.win 4).blk t).view.emb (ix2 a' b')) = A (ix2 a' b')
  refine congrArg A (funext fun a => Fin.ext ?_)
  match a with
  | ⟨0, _⟩ => show win0_4.index t (0 : Fin 2) * 32 + 1 * a'.val = a'.val; rw [e0]; omega
  | ⟨1, _⟩ => show win0_4.index t (1 : Fin 2) * 64 + 1 * b'.val = b'.val; rw [e1]; omega

/-- The one block of the second 1×64 window is its whole array, at every point. -/
theorem read_bself (A : FVec Ideal S1x64 .f32) (t : Fin cfg0.N) (a' : Fin 1) (b' : Fin 64) :
    ((((cfg0.win 5).blk t).view.read (Elt Ideal) A) : FVec Ideal S1x64 .f32) (ix2 a' b') = A (ix2 a' b') := by
  obtain ⟨-, -, -, -, -, -, -, -, -, -, e0, e1, -, -⟩ := index_facts t
  show A (((cfg0.win 5).blk t).view.emb (ix2 a' b')) = A (ix2 a' b')
  refine congrArg A (funext fun a => Fin.ext ?_)
  match a with
  | ⟨0, _⟩ => show win0_5.index t (0 : Fin 2) * 1 + 1 * a'.val = a'.val; rw [e0]; omega
  | ⟨1, _⟩ => show win0_5.index t (1 : Fin 2) * 64 + 1 * b'.val = b'.val; rw [e1]; omega

/-! ## What one point writes back, for any six arrays -/

/-- With the six windows' blocks read off ANY six arrays, the body's stored value at point `t`, cut to the output
    window's block, is rows `5000·t … 5000·t + 4999` of `combine` of those arrays: at `(p, q)` the stored value is
    `combine` at `(5000·t + p, q)`, each block's entry being the entry of its array the block holds. -/
theorem point_writes (U : FVec Ideal S100000x256 .f32) (X : FVec Ideal S100000x32 .f32) (Wl : FVec Ideal S256x64 .f32)
    (Bl : FVec Ideal S1x64 .f32) (Ws : FVec Ideal S32x64 .f32) (Bs : FVec Ideal S1x64 .f32) (t : Fin cfg0.N) :
    (cfg0.win 6).cut (grid0.coords t)
        (k0_pay1 (F := Ideal) (((cfg0.win 0).blk t).view.read (Elt Ideal) U) (((cfg0.win 1).blk t).view.read (Elt Ideal) X) (((cfg0.win 2).blk t).view.read (Elt Ideal) Wl) (((cfg0.win 4).blk t).view.read (Elt Ideal) Ws) (((cfg0.win 3).blk t).view.read (Elt Ideal) Bl) (((cfg0.win 5).blk t).view.read (Elt Ideal) Bs))
      = ((cfg0.win 6).blk t).view.read (Elt Ideal)
          (combine U X Wl (fun q => Bl (ix2 (0 : Fin 1) q)) Ws (fun q => Bs (ix2 (0 : Fin 1) q))) := by
  obtain ⟨-, -, -, -, -, -, -, -, -, -, -, -, e0, e1⟩ := index_facts t
  have hN : cfg0.N = 20 := N_0
  funext j
  obtain ⟨p, q, rfl⟩ : ∃ (p : Fin 5000) (q : Fin 64), j = ix2 p q := ⟨j 0, j 1, eq_ix2 j⟩
  have hP : t.val * 5000 + p.val < 100000 := by have := t.isLt; omega
  show k0_pay1 (F := Ideal) (((cfg0.win 0).blk t).view.read (Elt Ideal) U) (((cfg0.win 1).blk t).view.read (Elt Ideal) X) (((cfg0.win 2).blk t).view.read (Elt Ideal) Wl) (((cfg0.win 4).blk t).view.read (Elt Ideal) Ws) (((cfg0.win 3).blk t).view.read (Elt Ideal) Bl) (((cfg0.win 5).blk t).view.read (Elt Ideal) Bs) (ix2 p q)
    = combine U X Wl (fun q => Bl (ix2 (0 : Fin 1) q)) Ws (fun q => Bs (ix2 (0 : Fin 1) q)) (((cfg0.win 6).blk t).view.emb (ix2 p q))
  have hemb : ((cfg0.win 6).blk t).view.emb (ix2 p q) = ix2 (⟨t.val * 5000 + p.val, hP⟩ : Fin 100000) q :=
    funext fun a => Fin.ext (by
      match a with
      | ⟨0, _⟩ => show win0_6.index t (0 : Fin 2) * 5000 + 1 * p.val = t.val * 5000 + p.val; rw [e0]; omega
      | ⟨1, _⟩ => show win0_6.index t (1 : Fin 2) * 64 + 1 * q.val = q.val; rw [e1]; omega)
  rw [hemb, combine_apply]
  refine (stored_apply (((cfg0.win 0).blk t).view.read (Elt Ideal) U) (((cfg0.win 1).blk t).view.read (Elt Ideal) X) (((cfg0.win 2).blk t).view.read (Elt Ideal) Wl) (((cfg0.win 4).blk t).view.read (Elt Ideal) Ws) (((cfg0.win 3).blk t).view.read (Elt Ideal) Bl) (((cfg0.win 5).blk t).view.read (Elt Ideal) Bs) p q).trans ?_
  have h0 : ∀ k : Fin 256, ((((cfg0.win 0).blk t).view.read (Elt Ideal) U) : FVec Ideal S5000x256 .f32) (ix2 p k) = U (ix2 (⟨t.val * 5000 + p.val, hP⟩ : Fin 100000) k) :=
    fun k => read_aggr U t p k _ rfl
  have h1 : ∀ k : Fin 32, ((((cfg0.win 1).blk t).view.read (Elt Ideal) X) : FVec Ideal S5000x32 .f32) (ix2 p k) = X (ix2 (⟨t.val * 5000 + p.val, hP⟩ : Fin 100000) k) :=
    fun k => read_feat X t p k _ rfl
  have h2 : ∀ k : Fin 256, ((((cfg0.win 2).blk t).view.read (Elt Ideal) Wl) : FVec Ideal S256x64 .f32) (ix2 k q) = Wl (ix2 k q) := fun k => read_wlin Wl t k q
  have h4 : ∀ k : Fin 32, ((((cfg0.win 4).blk t).view.read (Elt Ideal) Ws) : FVec Ideal S32x64 .f32) (ix2 k q) = Ws (ix2 k q) := fun k => read_wself Ws t k q
  have h3 : ((((cfg0.win 3).blk t).view.read (Elt Ideal) Bl) : FVec Ideal S1x64 .f32) (ix2 (0 : Fin 1) q) = Bl (ix2 (0 : Fin 1) q) := read_blin Bl t 0 q
  have h5 : ((((cfg0.win 5).blk t).view.read (Elt Ideal) Bs) : FVec Ideal S1x64 .f32) (ix2 (0 : Fin 1) q) = Bs (ix2 (0 : Fin 1) q) := read_bself Bs t 0 q
  simp only [h0, h1, h2, h3, h4, h5]

/-! ## The cover -/

/-- An entry of the output array is in point `t`'s block iff, on each axis, its coordinate is in the block's range. -/
theorem mem_block (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v32).slice (win0_6.rect t)).set ↔ _
  rw [View.set_slice_whole, Rect.mem_set_unit]
  exact Iff.rfl

/-- Every entry of the output array is in some point's block: row `r` is in block `r / 5000`. -/
theorem covered (i : S100000x64.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 64 := (i 1).isLt
  have ht : (i 0).val / 5000 < cfg0.N := by rw [hN]; omega
  obtain ⟨-, -, -, -, -, -, -, -, -, -, -, -, e0, e1⟩ := index_facts ⟨(i 0).val / 5000, ht⟩
  refine ⟨⟨(i 0).val / 5000, ht⟩, flush0_6 _, ?_⟩
  rw [mem_block]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ (1 : Fin 2) * 64 ≤ (i 1).val ∧ (i 1).val < win0_6.index ⟨(i 0).val / 5000, ht⟩ (1 : Fin 2) * 64 + 64
    rw [e1]
    omega

/-! ## The region's arrays, and the run -/

variable (m : (ℓ : Loc nD τ sig) → Buf (Elt Ideal) ℓ) (ρ : Dev nD → PrngReg)

/-- What the output array is to hold: `combine` of the six arrays the region finds — window by window, in the
    pipeline's order: the aggregated features, the node features, the relation weights, the relation bias row, the
    self-loop weights, the self-loop bias row —, each bias read at the one row of its 1×64 array. -/
def target (c : Dev nD) : FVec Ideal S100000x64 .f32 :=
  combine (V m c (Pipeline.arrRef spec0 0)) (V m c (Pipeline.arrRef spec0 1)) (V m c (Pipeline.arrRef spec0 2))
    (fun q => (V m c (Pipeline.arrRef spec0 3) : FVec Ideal S1x64 .f32) (ix2 (0 : Fin 1) q)) (V m c (Pipeline.arrRef spec0 4))
    (fun q => (V m c (Pipeline.arrRef spec0 5) : FVec Ideal S1x64 .f32) (ix2 (0 : Fin 1) q))

/-- Point `t` writes back rows `5000·t … 5000·t + 4999` of `target`. -/
theorem flushed_eq (c : Dev nD) (t : Fin cfg0.N) :
    (dats m 0 c).flushed 6 t = ((cfg0.win 6).blk t).view.read (Elt Ideal) (target m c) := by
  rw [flushed6]
  unfold out0_6
  rw [View.canon_unit_zero hz]
  simp only [View.ld_unit_zero (S := S5000x256) hz, View.ld_unit_zero (S := S5000x32) hz, View.ld_unit_zero (S := S256x64) hz,
    View.ld_unit_zero (S := S32x64) hz, View.ld_unit_zero (S := S1x64) hz]
  unfold iblk target
  exact point_writes (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) t

/-- The output array after the run is `target`, whole. -/
theorem final (c : Dev nD) : (dats m 0 c).arrAt 6 cfg0.N = target m c :=
  (dats m 0 c).arrAt_eq_of_cover 6 (target m c) (fun t _ => flushed_eq m c t) covered

/-- The kernel's run, read: the output array at `target`, the seven arguments unchanged. -/
theorem run : θ_run defs (onTc (τ := τ) (main (F := Ideal))) ⟨m, fun _ => 0, ρ⟩ fun r => ∀ c : Dev nD,
      r.2.mem ((c : Thread nD τ).loc main_v32) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Rows

end
-- ==== Proof.EntryArrays.lean ====
/-
  The arrays the region finds, as functions of the program's arguments.

  Before the one kernel region, the host part of the program computes the aggregated features from `x`,
  `edge_list` and `edge_weight` — source rows gathered per edge and weighted, summed per (destination, relation)
  segment, divided by the segment's summed weight plus a small constant, and laid out as one row of 256 per node —
  and lays each of the two biases out as one row of 64. The reference computes its aggregated features by the same
  operations on the same arguments in the same order of composition, so the array the region finds IS the
  reference's aggregation stage of the three arguments: the two terms are one, operation for operation, and
  nothing of the gather or of the segment sums is opened to see it. A bias laid out as a 1×64 array reads, at
  `(0, q)`, the bias at `q`.
-/
import proofs.«148265_j21766894256811_1_alg».proof.Proof.Gen.KernelIdeal.Frame
import proofs.«148265_j21766894256811_1_alg».proof.Proof.Gen.ReferenceIdeal.Read
import Idealize.ShloMosaic.Lib.StableHlo.Run
import Idealize.ShloMosaic.Lib.ValueLayout

noncomputable section

namespace Cert.KernelIdeal.Entry

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

set_option maxRecDepth 8192 in
set_option maxHeartbeats 2000000 in
/-- The aggregated features as the region finds them are the reference's aggregation stage of `x`, `edge_list` and
    `edge_weight` as launched: the same composition of the same operations. -/
theorem aggregate_eq (c : Dev nD) :
    (V m c main_v29 : S100000x256.Idx → EReal)
      = Cert.ReferenceIdeal.Read.val_main_v29 (F := Ideal) (m ((c : Thread nD τ).loc main_arg0))
          (m ((c : Thread nD τ).loc main_arg1)) (m ((c : Thread nD τ).loc main_arg2)) := by
  dsimp only [Gen.V, Gen.hostOps0]
  after_results_simp
  rfl

/-- The relation bias as the region finds it, a 1×64 array: at `(0, q)` it is `b_linear` at `q`. -/
theorem bias_linear_apply (c : Dev nD) (q : Fin 64) :
    (V m c main_v30 : S1x64.Idx → EReal) (ix2 (0 : Fin 1) q) = (m ((c : Thread nD τ).loc main_arg4) : S64.Idx → EReal) (ix1 q) := by
  have e : (V m c main_v30 : S1x64.Idx → EReal)
      = shapeCast S1x64 (m ((c : Thread nD τ).loc main_arg4) : S64.Idx → EReal) shapeCasts_S64_S1x64 := by
    dsimp only [Gen.V, Gen.hostOps0]; after_results; rfl
  rw [e]
  exact shapeCast_a_1a_apply _ _ 0 q

/-- The self-loop bias as the region finds it, a 1×64 array: at `(0, q)` it is `b_self` at `q`. -/
theorem bias_self_apply (c : Dev nD) (q : Fin 64) :
    (V m c main_v31 : S1x64.Idx → EReal) (ix2 (0 : Fin 1) q) = (m ((c : Thread nD τ).loc main_arg6) : S64.Idx → EReal) (ix1 q) := by
  have e : (V m c main_v31 : S1x64.Idx → EReal)
      = shapeCast S1x64 (m ((c : Thread nD τ).loc main_arg6) : S64.Idx → EReal) shapeCasts_S64_S1x64 := by
    dsimp only [Gen.V, Gen.hostOps0]; after_results; rfl
  rw [e]
  exact shapeCast_a_1a_apply _ _ 0 q

end Cert.KernelIdeal.Entry

end
-- ==== Proof.KernelResult.lean ====
/-
  The kernel's run, read over the launched arguments.

  After the run the output array is `combine` of the six arrays the region finds (the module on the row blocks).
  Those are: the aggregated features, which are the reference's aggregation stage of the launched `x`, `edge_list`
  and `edge_weight`; the launched `x`, `W_linear` and `W_self`, which the host part never writes; and the two biases
  as 1×64 arrays, read at `(0, q)` as the launched bias at `q` (the module on the arrays the region finds). So the
  output array is `combine` of functions of the launched arguments alone.
-/
import proofs.«148265_j21766894256811_1_alg».proof.Proof.RowBlocks
import proofs.«148265_j21766894256811_1_alg».proof.Proof.EntryArrays

noncomputable section

namespace Cert.KernelIdeal.Result

open Cert.KernelIdeal Cert.KernelIdeal.Gen Cert.KernelIdeal.Rows Cert.KernelIdeal.Entry Cert.Combine
open Idealize.ShloMosaic Idealize.ShloMosaic.TcCoe Idealize.SL.Sem Idealize.ShloMosaic.ValueIdx

variable (m : (ℓ : Loc nD τ sig) → Buf (Elt Ideal) ℓ) (ρ : Dev nD → PrngReg)

/-- What the output array holds after the run, as a function of the launched arguments. -/
def result (c : Dev nD) : FVec Ideal S100000x64 .f32 :=
  combine (Cert.ReferenceIdeal.Read.val_main_v29 (F := Ideal) (m ((c : Thread nD τ).loc main_arg0)) (m ((c : Thread nD τ).loc main_arg1)) (m ((c : Thread nD τ).loc main_arg2)))
    ((m ((c : Thread nD τ).loc main_arg0)) : S100000x32.Idx → EReal) ((m ((c : Thread nD τ).loc main_arg3)) : S256x64.Idx → EReal)
    (fun q => ((m ((c : Thread nD τ).loc main_arg4)) : S64.Idx → EReal) (ix1 q))
    ((m ((c : Thread nD τ).loc main_arg5)) : S32x64.Idx → EReal)
    (fun q => ((m ((c : Thread nD τ).loc main_arg6)) : S64.Idx → EReal) (ix1 q))

/-- `combine` of the arrays the region finds is `combine` of the launched arguments. -/
theorem target_eq (c : Dev nD) : target m c = result m c := by
  have hb : (fun q : Fin 64 => (V m c main_v30 : S1x64.Idx → EReal) (ix2 (0 : Fin 1) q))
      = fun q => ((m ((c : Thread nD τ).loc main_arg4)) : S64.Idx → EReal) (ix1 q) := funext fun q => bias_linear_apply m c q
  have hs : (fun q : Fin 64 => (V m c main_v31 : S1x64.Idx → EReal) (ix2 (0 : Fin 1) q))
      = fun q => ((m ((c : Thread nD τ).loc main_arg6)) : S64.Idx → EReal) (ix1 q) := funext fun q => bias_self_apply m c q
  unfold target result
  show combine (V m c main_v29 : S100000x256.Idx → EReal) (V m c main_arg0 : S100000x32.Idx → EReal)
      (V m c main_arg3 : S256x64.Idx → EReal) (fun q : Fin 64 => (V m c main_v30 : S1x64.Idx → EReal) (ix2 (0 : Fin 1) q))
      (V m c main_arg5 : S32x64.Idx → EReal) (fun q : Fin 64 => (V m c main_v31 : S1x64.Idx → EReal) (ix2 (0 : Fin 1) q)) = _
  rw [hb, hs, aggregate_eq m c, V_main_arg0 m c, V_main_arg3 m c, V_main_arg5 m c]

/-- The kernel's run: the output array at `result`, the seven arguments unchanged. -/
theorem run : θ_run defs (onTc (τ := τ) (main (F := Ideal))) ⟨m, fun _ => 0, ρ⟩ fun r => ∀ c : Dev nD,
      r.2.mem ((c : Thread nD τ).loc main_v32) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (target_eq m c), (h c).2⟩) (Rows.run m ρ)

end Cert.KernelIdeal.Result

end
-- ==== Proof.RefCombine.lean ====
/-
  The reference's result is `combine` of its own aggregated features.

  After the aggregation stage (the gather of source rows, the two segment sums and their quotient, reshaped to one
  row of 256 per node: the stage `val_main_v29` of the arguments `x`, `edge_list`, `edge_weight`), the reference
  multiplies by `W_linear`, adds `b_linear` repeated down the rows, adds `x · W_self`, adds `b_self` repeated down
  the rows, and takes the maximum with zero. Each of those operations is read at an entry by its generated lemma;
  composed, entry `(p, q)` is `combine` at `(p, q)`, the aggregation stage left unopened. What is proved by hand is
  that the generated index functions (a product's operand entries at summation index `k`, a repeated bias row's
  source entry) are rows, columns and channels as `combine` writes them.
-/
import proofs.«148265_j21766894256811_1_alg».proof.Proof.Gen.ReferenceIdeal.Read
import proofs.«148265_j21766894256811_1_alg».proof.Proof.Combine

noncomputable section

namespace Cert.ReferenceIdeal.RefValue

open Cert.ReferenceIdeal Cert.ReferenceIdeal.Read Cert.Combine Idealize.ShloMosaic Idealize.ShloMosaic.ValueIdx

/-- The reference's last stage, as a function of the seven arguments, is `combine` of its aggregation stage, the node
    features, the two weight matrices and the two biases read by channel. -/
theorem result_eq (x0 : (⟨S100000x32, .f32⟩ : BufTy).Contents (Elt Ideal)) (x1 : (⟨S1600000x3, .i32⟩ : BufTy).Contents (Elt Ideal)) (x2 : (⟨S1600000, .f32⟩ : BufTy).Contents (Elt Ideal))
    (x3 : (⟨S256x64, .f32⟩ : BufTy).Contents (Elt Ideal)) (x4 : (⟨S64, .f32⟩ : BufTy).Contents (Elt Ideal)) (x5 : (⟨S32x64, .f32⟩ : BufTy).Contents (Elt Ideal)) (x6 : (⟨S64, .f32⟩ : BufTy).Contents (Elt Ideal)) :
    val_main_v39 (F := Ideal) x0 x1 x2 x3 x4 x5 x6
      = combine (val_main_v29 (F := Ideal) x0 x1 x2) x0 x3 (fun q => x4 (ix1 q)) x5 (fun q => x6 (ix1 q)) := by
  funext i
  obtain ⟨p, q, rfl⟩ : ∃ (p : Fin 100000) (q : Fin 64), i = ix2 p q := ⟨i 0, i 1, eq_ix2 i⟩
  rw [combine_apply, val_main_v39_apply, val_main_v38_apply, val_main_v35_apply, val_main_v33_apply, val_main_v30_apply,
    val_main_v32_apply, val_main_v31_apply, val_main_v34_apply, val_main_v37_apply, val_main_v36_apply,
    val_main_call0_v0_apply, val_main_call0_cst_apply]
  -- the wide product's operands at summation index `k`: row `p` of the aggregate, column `q` of the weights
  have e1 : ∀ k : Fin 256, lidx_main_v30 (ix2 p q) k = ix2 p k := fun k => funext fun a => Fin.ext (by
    match a with | ⟨0, _⟩ => rfl | ⟨1, _⟩ => rfl)
  have e2 : ∀ k : Fin 256, ridx_main_v30 (ix2 p q) k = ix2 k q := fun k => funext fun a => Fin.ext (by
    match a with | ⟨0, _⟩ => rfl | ⟨1, _⟩ => rfl)
  -- the narrow product's: row `p` of the node features, column `q` of the self-loop weights
  have e3 : ∀ k : Fin 32, lidx_main_v34 (ix2 p q) k = ix2 p k := fun k => funext fun a => Fin.ext (by
    match a with | ⟨0, _⟩ => rfl | ⟨1, _⟩ => rfl)
  have e4 : ∀ k : Fin 32, ridx_main_v34 (ix2 p q) k = ix2 k q := fun k => funext fun a => Fin.ext (by
    match a with | ⟨0, _⟩ => rfl | ⟨1, _⟩ => rfl)
  -- a bias repeated down the rows is read at its channel `q`
  have e5 : idx_main_v31 (idx_main_v32 (ix2 p q)) = ix1 q := funext fun a => Fin.ext (by
    match a with | ⟨0, _⟩ => rfl)
  have e6 : idx_main_v36 (idx_main_v37 (ix2 p q)) = ix1 q := funext fun a => Fin.ext (by
    match a with | ⟨0, _⟩ => rfl)
  simp only [e1, e2, e3, e4, e5, e6]
  rfl

end Cert.ReferenceIdeal.RefValue

end
-- ==== Proof.lean ====
/-
  A relational graph convolution: the linear-combine stage as a row-blocked kernel, against the plain formula.

  Both programs first aggregate messages on the host, by the same operations: each edge gathers its source
  node's 32 features and weights them, the weighted rows and the weights are summed per (destination, relation)
  segment — 8 relations, so 800000 segments —, the sums are divided by the summed weight plus a small constant,
  and the result is laid out as one row of 8·32 = 256 aggregated features per node. Then, with `U` that array:

      out = max ( ((U·W_linear + b_linear) + x·W_self) + b_self ) 0.

  The reference computes this with two whole matrix products. The kernel computes it 5000 nodes at a time over a
  grid of 20 points, narrowing the operands of its two products to bf16 first; on extended reals a change of float
  format is the identity, and a product into a zero accumulator is the plain sum, so each block the kernel writes
  is the same rows of the same function, and the 20 blocks tile the 100000 rows.

  The pieces: `Combine` states the function; `BodyAtIndex` reads the kernel body's stored value at an entry;
  `RowBlocks` shows a grid point writes its rows of the function and that the blocks cover the output;
  `EntryArrays` identifies the aggregated features the region finds with the reference's aggregation stage of the
  same arguments (one composition of operations, never opened) and reads the two bias rows; `KernelResult` puts
  these together over the launched arguments; `RefCombine` reads the reference's result as the same function.
  The idealization changed no operation, so there is nothing to preserve; and since both sides add the same four
  summands in the same order, the equality uses no law that would need the inputs to be finite.
-/
import proofs.«148265_j21766894256811_1_alg».proof.Defs
import proofs.«148265_j21766894256811_1_alg».proof.Proof.Gen.Kernel
import proofs.«148265_j21766894256811_1_alg».proof.Proof.Gen.Kernel.Skeleton
import proofs.«148265_j21766894256811_1_alg».proof.Proof.Gen.Kernel.Launch
import proofs.«148265_j21766894256811_1_alg».proof.Proof.Gen.Kernel.Points
import proofs.«148265_j21766894256811_1_alg».proof.Proof.Gen.Kernel.Frame
import proofs.«148265_j21766894256811_1_alg».proof.Proof.Gen.KernelIdeal
import proofs.«148265_j21766894256811_1_alg».proof.Proof.Gen.KernelIdeal.Skeleton
import proofs.«148265_j21766894256811_1_alg».proof.Proof.Gen.KernelIdeal.Launch
import proofs.«148265_j21766894256811_1_alg».proof.Proof.Gen.KernelIdeal.Points
import proofs.«148265_j21766894256811_1_alg».proof.Proof.Gen.KernelIdeal.Frame
import proofs.«148265_j21766894256811_1_alg».proof.Proof.Gen.ReferenceIdeal
import proofs.«148265_j21766894256811_1_alg».proof.Proof.Gen.KernelIdeal.Value
import proofs.«148265_j21766894256811_1_alg».proof.Proof.Gen.ReferenceIdeal.Run
import proofs.«148265_j21766894256811_1_alg».proof.Proof.Gen.ReferenceIdeal.Read
import proofs.«148265_j21766894256811_1_alg».proof.Proof.Gen.Pre_finite_inputs
import proofs.«148265_j21766894256811_1_alg».proof.Proof.KernelResult
import proofs.«148265_j21766894256811_1_alg».proof.Proof.RefCombine
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments, the kernel's output array and the reference's result are both
    `combine` of the aggregation stage of `x`, `edge_list`, `edge_weight`, of `x`, the two weight matrices and the two
    biases: the kernel's by its row blocks, the reference's stage by stage. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v39_eq, Cert.ReferenceIdeal.RefValue.result_eq, a0, a1, a2, a3, a4, a5, a6]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
